-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x16 : Shape := ⟨2, ![4096, 16]⟩
abbrev S16x4096 : Shape := ⟨2, ![16, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn {F : FTy → Type} [FloatOps F] (main_arg0 : FVec F S8192x4096 .f32) (main_arg1 : FVec F S4096x16 .f32) (main_arg2 : FVec F S16x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  main_v13
-- ==== Kernel.lean ====
abbrev S8192x4096 : Shape := ⟨2, ![8192, 4096]⟩
abbrev S4096x16 : Shape := ⟨2, ![4096, 16]⟩
abbrev S16x4096 : Shape := ⟨2, ![16, 4096]⟩
abbrev S_ : Shape := ⟨0, ![]⟩
abbrev S512x4096 : Shape := ⟨2, ![512, 4096]⟩
abbrev S512x16 : Shape := ⟨2, ![512, 16]⟩

abbrev nBuf : Space → Nat
  | .hbm => 7
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x16, .f32⟩
  | .hbm, ⟨2, _⟩ => ⟨S16x4096, .f32⟩
  | .hbm, ⟨3, _⟩ => ⟨S_, .f32⟩
  | .hbm, ⟨4, _⟩ => ⟨S16x4096, .f32⟩
  | .hbm, ⟨5, _⟩ => ⟨S16x4096, .f32⟩
  | .hbm, ⟨6, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S4096x16, .f32⟩
  | .local _ .vmem, ⟨3, _⟩ => ⟨S16x4096, .f32⟩
  | .local _ .vmem, ⟨4, _⟩ => ⟨S512x4096, .f32⟩
  | .local _ .vmem, ⟨5, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S16x4096 : S_.BroadcastsInDim S16x4096 (![] : Fin 0 → Fin S16x4096.rank)
  inb_S512x4096_S512x4096_0_0 : ∀ a, (![0, 0] : Fin 2 → Nat) a + S512x4096.size a ≤ S512x4096.size a
  h_S512x4096 : 0 < S512x4096.numel
  inb_S4096x16_S4096x16_0_0 : ∀ a, (![0, 0] : Fin 2 → Nat) a + S4096x16.size a ≤ S4096x16.size a
  h_S4096x16 : 0 < S4096x16.numel
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  dot_S512x4096_S4096x16_S512x16_1_0_0_1_n_n_wf : DotDims.WF S512x4096 S4096x16 S512x16 [1] [0] [0] [1] [] []
  dot_S512x16_S16x4096_S512x4096_1_0_0_1_n_n_wf : DotDims.WF S512x16 S16x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x16.size a ≤ S4096x16.size a
  hwx0_1 : ∀ i : grid0.Coords, EltTy.bits .f32 = 32 ∨ (Rect.block (s := S4096x16) S4096x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x4096.size a
  hwx0_2 : ∀ i : grid0.Coords, EltTy.bits .f32 = 32 ∨ (Rect.block (s := S16x4096) S16x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x4096.size a
  hwx0_3 : ∀ i : grid0.Coords, EltTy.bits .f32 = 32 ∨ (Rect.block (s := S8192x4096) S512x4096.size (cc0_transform_3 i) (hinb0_3 i)).WholeWords (EltTy.packing .f32)

variable [Facts₀]

def dot_S512x4096_S4096x16_S512x16_1_0_0_1_n_n : DotDims S512x4096 S4096x16 S512x16 where
  lhsContracting := [1]
  rhsContracting := [0]
  lhsNonContracting := [0]
  rhsNonContracting := [1]
  lhsBatch := []
  rhsBatch := []
  wf := dot_S512x4096_S4096x16_S512x16_1_0_0_1_n_n_wf
def dot_S512x16_S16x4096_S512x4096_1_0_0_1_n_n : DotDims S512x16 S16x4096 S512x4096 where
  lhsContracting := [1]
  rhsContracting := [0]
  lhsNonContracting := [0]
  rhsNonContracting := [1]
  lhsBatch := []
  rhsBatch := []
  wf := dot_S512x16_S16x4096_S512x4096_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x16 : Shape := ⟨2, ![4096, 16]⟩
abbrev S16x4096 : Shape := ⟨2, ![16, 4096]⟩
abbrev S_ : Shape := ⟨0, ![]⟩
abbrev S1024x4096 : Shape := ⟨2, ![1024, 4096]⟩
abbrev S16x512 : Shape := ⟨2, ![16, 512]⟩
abbrev S1024x512 : Shape := ⟨2, ![1024, 512]⟩
abbrev S1024x16 : Shape := ⟨2, ![1024, 16]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x16, .f32⟩
  | .hbm, ⟨2, _⟩ => ⟨S16x4096, .f32⟩
  | .hbm, ⟨3, _⟩ => ⟨S_, .f32⟩
  | .hbm, ⟨4, _⟩ => ⟨S16x4096, .f32⟩
  | .hbm, ⟨5, _⟩ => ⟨S16x4096, .f32⟩
  | .hbm, ⟨6, _⟩ => ⟨S8192x4096, .f32⟩
  | .local _ .vmem, ⟨0, _⟩ => ⟨S1024x4096, .f32⟩
  | .local _ .vmem, ⟨1, _⟩ => ⟨S1024x4096, .f32⟩
  | .local _ .vmem, ⟨2, _⟩ => ⟨S4096x16, .f32⟩
  | .local _ .vmem, ⟨3, _⟩ => ⟨S16x512, .f32⟩
  | .local _ .vmem, ⟨4, _⟩ => ⟨S16x512, .f32⟩
  | .local _ .vmem, ⟨5, _⟩ => ⟨S1024x512, .f32⟩
  | .local _ .vmem, ⟨6, _⟩ => ⟨S1024x512, .f32⟩
  | .local _ .vmem, ⟨7, _⟩ => ⟨S1024x16, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S16x4096 : S_.BroadcastsInDim S16x4096 (![] : Fin 0 → Fin S16x4096.rank)
  inb_S1024x4096_S1024x4096_0_0 : ∀ a, (![0, 0] : Fin 2 → Nat) a + S1024x4096.size a ≤ S1024x4096.size a
  h_S1024x4096 : 0 < S1024x4096.numel
  inb_S4096x16_S4096x16_0_0 : ∀ a, (![0, 0] : Fin 2 → Nat) a + S4096x16.size a ≤ S4096x16.size a
  h_S4096x16 : 0 < S4096x16.numel
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S1024x512_S1024x512_0_0 : ∀ a, (![0, 0] : Fin 2 → Nat) a + S1024x512.size a ≤ S1024x512.size a
  h_S1024x512 : 0 < S1024x512.numel
  dot_S1024x4096_S4096x16_S1024x16_1_0_0_1_n_n_wf : DotDims.WF S1024x4096 S4096x16 S1024x16 [1] [0] [0] [1] [] []
  dot_S1024x16_S16x512_S1024x512_1_0_0_1_n_n_wf : DotDims.WF S1024x16 S16x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x16.size a ≤ S4096x16.size a
  hwx0_1 : ∀ i : grid0.Coords, EltTy.bits .f32 = 32 ∨ (Rect.block (s := S4096x16) S4096x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S16x4096.size a
  hwx0_2 : ∀ i : grid0.Coords, EltTy.bits .f32 = 32 ∨ (Rect.block (s := S16x4096) S16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def dot_S1024x4096_S4096x16_S1024x16_1_0_0_1_n_n : DotDims S1024x4096 S4096x16 S1024x16 where
  lhsContracting := [1]
  rhsContracting := [0]
  lhsNonContracting := [0]
  rhsNonContracting := [1]
  lhsBatch := []
  rhsBatch := []
  wf := dot_S1024x4096_S4096x16_S1024x16_1_0_0_1_n_n_wf
def dot_S1024x16_S16x512_S1024x512_1_0_0_1_n_n : DotDims S1024x16 S16x512 S1024x512 where
  lhsContracting := [1]
  rhsContracting := [0]
  lhsNonContracting := [0]
  rhsNonContracting := [1]
  lhsBatch := []
  rhsBatch := []
  wf := dot_S1024x16_S16x512_S1024x512_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.LibPlainMatmul.lean ====
/-
  A plain matrix product read at an index, at the ideal instance.

  The dimension numbers of a `tpu.matmul` of an `M×K` operand by a `K×N` operand — contract the left operand's
  axis 1 with the right operand's axis 0, keep the left operand's axis 0 and the right operand's axis 1, no batch
  axis — make entry `(p, q)` of the product into a zero accumulator the sum over `k < K` of
  `lhs (p, k) · rhs (k, q)` on the extended reals. The record of dimension numbers is a VARIABLE here and its six
  printed fields are hypotheses (`IsPlain`), so one statement serves every product of this kind, whatever its extents:
  for a printed record each field is `rfl`.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat}

/-- The dimension numbers are those of a plain product: contract (left 1, right 0), keep (left 0, right 1), no batch. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

/-- Two coordinates of one index at equal positions are equal. -/
private theorem coord_congr (j : (⟨2, ![M, N]⟩ : Shape).Idx) (a b : Nat) (ha : a < (⟨2, ![M, N]⟩ : Shape).rank)
    (hb : b < (⟨2, ![M, N]⟩ : Shape).rank) (e : a = b) : (j ⟨a, ha⟩).val = (j ⟨b, hb⟩).val := by
  subst e; rfl

/-- The left operand's row is the result's row. -/
theorem lhs_row (h : IsPlain D) (j : (⟨2, ![M, N]⟩ : Shape).Idx) (q : D.contr.Idx) :
    (D.lhsIdx j q 0).val = (j 0).val := by
  unfold DotDims.lhsIdx
  rw [dif_neg (show ¬(0 : Fin (⟨2, ![M, K]⟩ : Shape).rank) ∈ D.lhsBatch by rw [h.lb]; exact List.not_mem_nil),
    dif_pos (show (0 : Fin (⟨2, ![M, K]⟩ : Shape).rank) ∈ D.lhsNonContracting by rw [h.ln]; exact List.mem_singleton.mpr rfl)]
  simp only [Fin.val_cast]
  exact coord_congr j _ _ _ _ (by rw [h.lb, h.ln]; rfl)

/-- The left operand's column is the contraction's one coordinate. -/
theorem lhs_col (h : IsPlain D) (j : (⟨2, ![M, N]⟩ : Shape).Idx) (q : D.contr.Idx) :
    (D.lhsIdx j q 1).val = (q ⟨0, by rw [D.rank_contr, h.lc]; exact Nat.one_pos⟩).val :=
  D.lhsIdx_val_of_single h.lc j q

/-- The right operand's row is the contraction's one coordinate. -/
theorem rhs_row (h : IsPlain D) (j : (⟨2, ![M, N]⟩ : Shape).Idx) (q : D.contr.Idx) :
    (D.rhsIdx j q 0).val = (q ⟨0, by rw [D.rank_contr, h.lc]; exact Nat.one_pos⟩).val :=
  D.rhsIdx_val_of_single h.rc j q

/-- The right operand's column is the result's column. -/
theorem rhs_col (h : IsPlain D) (j : (⟨2, ![M, N]⟩ : Shape).Idx) (q : D.contr.Idx) :
    (D.rhsIdx j q 1).val = (j 1).val := by
  unfold DotDims.rhsIdx
  rw [dif_neg (show ¬(1 : Fin (⟨2, ![K, N]⟩ : Shape).rank) ∈ D.rhsBatch by rw [h.rb]; exact List.not_mem_nil),
    dif_pos (show (1 : Fin (⟨2, ![K, N]⟩ : Shape).rank) ∈ D.rhsNonContracting by rw [h.rn]; exact List.mem_singleton.mpr rfl)]
  simp only [Fin.val_cast]
  exact coord_congr j _ _ _ _ (by rw [h.lb, h.ln, h.rn]; rfl)

/-- The contracted shape has one axis, -/
theorem contr_rank (h : IsPlain D) : D.contr.rank = 1 := by
  rw [D.rank_contr, h.lc]; rfl

/-- of extent `K`. -/
theorem contr_size (h : IsPlain D) : D.contr.size ⟨0, by rw [contr_rank h]; exact Nat.one_pos⟩ = K := by
  have key : ∀ (s : Shape) (_ : s = Shape.ofList [K]) (hp : 0 < s.rank), s.size ⟨0, hp⟩ = K := by
    intro s e hp; subst e; rfl
  exact key _ (by unfold DotDims.contr; rw [h.lc]; rfl) _

/-- ENTRY `(p, q)` OF THE PRODUCT into a zero accumulator: the sum over the contracted axis of the left operand's row
    `p` against the right operand's column `q`, on the extended reals. -/
theorem matmul_zero_apply (h : IsPlain D) (prec : Option ContractPrecision) {φ₁ φ₂ : FTy}
    (lhs : FVec Ideal ⟨2, ![M, K]⟩ φ₁) (rhs : FVec Ideal ⟨2, ![K, N]⟩ φ₂) (p : Fin M) (q : Fin N) :
    FloatOps.matmul D prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 D K (contr_rank h) (contr_size h)).symm]
  refine Finset.sum_congr rfl fun k _ => ?_
  have hk := contrEquiv1_symm_val D K (contr_rank h) (contr_size h) k
  have el : D.lhsIdx (ix2 p q) ((contrEquiv1 D K (contr_rank h) (contr_size h)).symm k) = ix2 p k :=
    funext fun a => Fin.ext (by
      match a with
      | ⟨0, _⟩ => exact lhs_row h _ _
      | ⟨1, _⟩ => exact (lhs_col h _ _).trans hk)
  have er : D.rhsIdx (ix2 p q) ((contrEquiv1 D K (contr_rank h) (contr_size h)).symm k) = ix2 k q :=
    funext fun a => Fin.ext (by
      match a with
      | ⟨0, _⟩ => exact (rhs_row h _ _).trans hk
      | ⟨1, _⟩ => exact rhs_col h _ _)
  rw [el, er]

end Cert.LibPlainMatmul

end
-- ==== Proof.Spec.lean ====
/-
  The function both programs compute, over the extended reals.

  `y = (x · A) · B'` through a rank-16 bottleneck: entry `(p, q)` of the result is
  `∑ k < 16, (∑ j < 4096, x (p, j) · A (j, k)) · B' (k, q)`, where `B' = 16 · B` entry by entry (the scale is folded
  into the small factor before either product). The inner sum is one entry of `x · A`; neither program ever forms
  `A · B'`, so no sum is re-associated and no law of the extended reals beyond reading each product as its sum is used.
-/
import Idealize.ShloMosaic.PureOps.Ideal
import Idealize.ShloMosaic.Lib.ValueIdx

noncomputable section

namespace Cert.LowRank

open Idealize.ShloMosaic Idealize.ShloMosaic.ValueIdx

/-- Entry `(p, k)` of `x · A`: row `p` of `x` against column `k` of `A`. -/
def bottleneck (x : FVec Ideal ⟨2, ![8192, 4096]⟩ .f32) (A : FVec Ideal ⟨2, ![4096, 16]⟩ .f32)
    (p : Fin 8192) (k : Fin 16) : Ideal .f32 :=
  ∑ j : Fin 4096, x (ix2 p j) * A (ix2 j k)

/-- Entry `(p, q)` of `(x · A) · B'`. -/
def entry (x : FVec Ideal ⟨2, ![8192, 4096]⟩ .f32) (A : FVec Ideal ⟨2, ![4096, 16]⟩ .f32)
    (B' : FVec Ideal ⟨2, ![16, 4096]⟩ .f32) (p : Fin 8192) (q : Fin 4096) : Ideal .f32 :=
  ∑ k : Fin 16, bottleneck x A p k * B' (ix2 k q)

/-- The whole result array. -/
def product (x : FVec Ideal ⟨2, ![8192, 4096]⟩ .f32) (A : FVec Ideal ⟨2, ![4096, 16]⟩ .f32)
    (B' : FVec Ideal ⟨2, ![16, 4096]⟩ .f32) : FVec Ideal ⟨2, ![8192, 4096]⟩ .f32 :=
  fun i => entry x A B' (i 0) (i 1)

/-- The small factor scaled: `16 · B`, the scalar `16` (the word `0x41800000`) broadcast over `B`'s shape. -/
def scaled (hb : (⟨0, ![]⟩ : Shape).BroadcastsInDim ⟨2, ![16, 4096]⟩ (![] : Fin 0 → Fin 2))
    (B : FVec Ideal ⟨2, ![16, 4096]⟩ .f32) : FVec Ideal ⟨2, ![16, 4096]⟩ .f32 :=
  mulf (broadcastInDim ⟨2, ![16, 4096]⟩ ![] hb (constant (F := Ideal) ⟨0, ![]⟩ .f32 0x41800000#32)) B

end Cert.LowRank

end
-- ==== Proof.KernelValue.lean ====
/-
  What the kernel's result array holds, at the ideal instance.

  The kernel walks 16 row tiles of 512 rows. At tile `t` it loads rows `512·t … 512·t + 511` of `x`, the whole of `A`
  and the whole of `B' = 16 · B`, forms `(x_t · A) · B'` by two products into zero accumulators, and stores the tile
  whole; the tile is written back to rows `512·t …` of the result. Read at an index, each product is its sum over the
  contracted axis, so entry `(p, q)` of tile `t` is `∑ k, (∑ j, x (512·t + p, j) · A (j, k)) · B' (k, q)`: entry
  `(512·t + p, q)` of `(x · A) · B'`. The 16 tiles cover every row, so the result array is that product.
-/
import proofs.«171711_g2000505684096532_pallasbulk_122_2_alg».proof.Defs
import proofs.«171711_g2000505684096532_pallasbulk_122_2_alg».proof.Proof.Gen.KernelIdeal.Value
import proofs.«171711_g2000505684096532_pallasbulk_122_2_alg».proof.Proof.LibPlainMatmul
import proofs.«171711_g2000505684096532_pallasbulk_122_2_alg».proof.Proof.Spec
import Idealize.ShloMosaic.Lib.Pipeline.Value
import Idealize.ShloMosaic.Lib.StableHlo.Run
import Idealize.ShloMosaic.Lib.Tactic

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)
open Cert.LibPlainMatmul (IsPlain matmul_zero_apply)

variable (m : (ℓ : Loc nD τ sig) → Buf (Elt Ideal) ℓ) (ρ : Dev nD → PrngReg)

theorem hz : (![0, 0] : Fin 2 → Nat) = fun _ => 0 := funext fun a => by fin_cases a <;> rfl

/-! ## The tile's value at an index -/

/-- Both products' dimension numbers are those of a plain product. -/
theorem plain_xa : IsPlain dot_S512x4096_S4096x16_S512x16_1_0_0_1_n_n := ⟨rfl, rfl, rfl, rfl, rfl, rfl⟩
theorem plain_yb : IsPlain dot_S512x16_S16x4096_S512x4096_1_0_0_1_n_n := ⟨rfl, rfl, rfl, rfl, rfl, rfl⟩

/-- Entry `(p, q)` of what the body stores, from its three loaded blocks: the outer sum over the bottleneck axis of
    an entry of `x_t · A` against an entry of `B'`. -/
theorem tile_apply (x0 : Vec Ideal S512x4096 .f32) (x1 : Vec Ideal S4096x16 .f32) (x2 : Vec Ideal S16x4096 .f32)
    (p : Fin 512) (q : Fin 4096) :
    k0_pay1 (F := Ideal) x0 x1 x2 (ix2 p q)
      = ∑ k : Fin 16, (∑ j : Fin 4096, x0 (ix2 p j) * x1 (ix2 j k)) * x2 (ix2 k q) := by
  unfold k0_pay1
  refine (matmul_zero_apply plain_yb none _ _ p q).trans ?_
  refine Finset.sum_congr rfl fun k _ => ?_
  refine congrArg₂ (· * ·) (matmul_zero_apply plain_xa none x0 x1 p k) ?_
  rw [shapeCast_self]

/-! ## The blocks a tile reads, as entries of the arrays -/

/-- The argument arrays as the region finds them, and the three blocks point `t` loads, at their literal types. -/
abbrev xarr (c : Dev nD) : Vec Ideal S8192x4096 .f32 := V m c main_arg0
abbrev aarr (c : Dev nD) : Vec Ideal S4096x16 .f32 := V m c main_arg1
abbrev barr (c : Dev nD) : Vec Ideal S16x4096 .f32 := V m c main_v1
abbrev xblk (c : Dev nD) (t : Fin cfg0.N) : Vec Ideal S512x4096 .f32 := iblk m c 0 t
abbrev ablk (c : Dev nD) (t : Fin cfg0.N) : Vec Ideal S4096x16 .f32 := iblk m c 1 t
abbrev bblk (c : Dev nD) (t : Fin cfg0.N) : Vec Ideal S16x4096 .f32 := iblk m c 2 t

/-- The printed index maps over the 16 points: `x`'s and the result's row tile is the point's number, every other block
    index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of `x`'s tile `t` is row `512·t + p` of `x`. -/
theorem xblk_apply (c : Dev nD) (t : Fin cfg0.N) (p : Fin 512) (j : Fin 4096) (P : Fin 8192)
    (hP : P.val = 512 * t.val + p.val) : xblk m c t (ix2 p j) = xarr m c (ix2 P j) := by
  obtain ⟨e0, e1, -⟩ := idx_facts t
  show V m c main_arg0 (((cfg0.win 0).blk t).view.emb (ix2 p j)) = V m c main_arg0 (ix2 P j)
  refine congrArg _ (funext fun a => Fin.ext ?_)
  match a with
  | ⟨0, _⟩ => show win0_0.index t (0 : Fin 2) * 512 + 1 * p.val = P.val; omega
  | ⟨1, _⟩ => show win0_0.index t (1 : Fin 2) * 4096 + 1 * j.val = j.val; omega

/-- `A`'s one block is `A`. -/
theorem ablk_apply (c : Dev nD) (t : Fin cfg0.N) (j : Fin 4096) (k : Fin 16) :
    ablk m c t (ix2 j k) = aarr m c (ix2 j k) := by
  obtain ⟨-, -, e0, e1, -⟩ := idx_facts t
  show V m c main_arg1 (((cfg0.win 1).blk t).view.emb (ix2 j k)) = V m c main_arg1 (ix2 j k)
  refine congrArg _ (funext fun a => Fin.ext ?_)
  match a with
  | ⟨0, _⟩ => show win0_1.index t (0 : Fin 2) * 4096 + 1 * j.val = j.val; omega
  | ⟨1, _⟩ => show win0_1.index t (1 : Fin 2) * 16 + 1 * k.val = k.val; omega

/-- `B'`'s one block is `B'`. -/
theorem bblk_apply (c : Dev nD) (t : Fin cfg0.N) (k : Fin 16) (q : Fin 4096) :
    bblk m c t (ix2 k q) = barr m c (ix2 k q) := by
  obtain ⟨-, -, -, -, e0, e1, -⟩ := idx_facts t
  show V m c main_v1 (((cfg0.win 2).blk t).view.emb (ix2 k q)) = V m c main_v1 (ix2 k q)
  refine congrArg _ (funext fun a => Fin.ext ?_)
  match a with
  | ⟨0, _⟩ => show win0_2.index t (0 : Fin 2) * 16 + 1 * k.val = k.val; omega
  | ⟨1, _⟩ => show win0_2.index t (1 : Fin 2) * 4096 + 1 * q.val = q.val; omega

/-! ## What each point writes back, the cover, and the array -/

/-- WHAT POINT `t` WRITES BACK is tile `t` of `(x · A) · B'` of the arrays as the region finds them. -/
theorem flushed_eq (c : Dev nD) (t : Fin cfg0.N) :
    (dats m 0 c).flushed 3 t
      = ((cfg0.win 3).blk t).view.read (Elt Ideal) (LowRank.product (xarr m c) (aarr m c) (barr m c)) := by
  rw [Value.flushed3]
  unfold out0_3
  rw [View.canon_unit_zero hz]
  simp only [View.ld_unit_zero (S := S512x4096) hz, View.ld_unit_zero (S := S4096x16) hz,
    View.ld_unit_zero (S := S16x4096) hz]
  obtain ⟨-, -, -, -, -, -, e0, e1⟩ := idx_facts t
  refine funext fun (y : S512x4096.Idx) => ?_
  obtain ⟨p, q, rfl⟩ : ∃ (p : Fin 512) (q : Fin 4096), y = ix2 p q := ⟨y 0, y 1, eq_ix2 y⟩
  show k0_pay1 (F := Ideal) (xblk m c t) (ablk m c t) (bblk m c t) (ix2 p q)
    = LowRank.entry (xarr m c) (aarr m c) (barr m c) ((((cfg0.win 3).blk t).view.emb (ix2 p q)) 0)
        ((((cfg0.win 3).blk t).view.emb (ix2 p q)) 1)
  rw [tile_apply]
  unfold LowRank.entry LowRank.bottleneck
  refine Finset.sum_congr rfl fun k _ => congrArg₂ (· * ·) (Finset.sum_congr rfl fun j _ => ?_) ?_
  · rw [xblk_apply m c t p j ((((cfg0.win 3).blk t).view.emb (ix2 p q)) 0) (by
      show win0_3.index t (0 : Fin 2) * 512 + 1 * p.val = 512 * t.val + p.val; omega), ablk_apply]
  · rw [bblk_apply]
    refine congrArg _ (congrArg (ix2 k) (Fin.ext ?_))
    show q.val = win0_3.index t (1 : Fin 2) * 4096 + 1 * q.val
    omega

/-- An index of the array is in point `t`'s block iff each coordinate is in the block's range on its axis. -/
theorem mem_blk (t : Fin cfg0.N) (i : S8192x4096.Idx) :
    i ∈ ((cfg0.win 3).blk t).view.set ↔ ∀ a : Fin 2, win0_3.index t a * S512x4096.size a ≤ (i a).val
      ∧ (i a).val < win0_3.index t a * S512x4096.size a + S512x4096.size a := by
  show i ∈ ((View.whole main_v2).slice (win0_3.rect t)).set ↔ _
  rw [View.set_slice_whole, Rect.mem_set_unit]
  exact Iff.rfl

/-- Row `r` of the result lies in the tile of point `r / 512`: the 16 tiles cover the array. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 16 := N_0
  refine ⟨⟨(i 0).val / 512, by rw [hN]; omega⟩, flush0_3 _, ?_⟩
  rw [mem_blk]
  obtain ⟨-, -, -, -, -, -, e0, e1⟩ := idx_facts ⟨(i 0).val / 512, by rw [hN]; omega⟩
  intro a
  match a with
  | ⟨0, _⟩ =>
    show win0_3.index _ (0 : Fin 2) * 512 ≤ (i 0).val ∧ (i 0).val < win0_3.index _ (0 : Fin 2) * 512 + 512
    rw [e0]; dsimp only; omega
  | ⟨1, _⟩ =>
    show win0_3.index _ (1 : Fin 2) * 4096 ≤ (i 1).val ∧ (i 1).val < win0_3.index _ (1 : Fin 2) * 4096 + 4096
    rw [e1]; omega

/-- THE ARRAY after the run: `(x · A) · B'` of the arrays as the region finds them. -/
theorem final (c : Dev nD) :
    (dats m 0 c).arrAt 3 cfg0.N = LowRank.product (xarr m c) (aarr m c) (barr m c) :=
  (dats m 0 c).arrAt_eq_of_cover 3 _ (fun t _ => flushed_eq m c t) cover

/-! ## The arrays as the region finds them, from the arguments -/

/-- The host operations before the region leave `16 · B` in the third operand's array. -/
theorem barr_eq (c : Dev nD) :
    barr m c = LowRank.scaled bcast_S_S16x4096 (m ((c : Thread nD τ).loc main_arg2)) := by
  show V m c main_v1 = _
  dsimp only [V, hostOps0]
  after_results
  rfl

/-- THE RUN, READ: the result array ends at `(x · A) · (16 · B)` of the arguments, which end unchanged. -/
theorem run : θ_run defs (onTc (τ := τ) (main (F := Ideal))) ⟨m, fun _ => 0, ρ⟩ fun r => ∀ c : Dev nD,
      r.2.mem ((c : Thread nD τ).loc main_v2)
        = LowRank.product (m ((c : Thread nD τ).loc main_arg0)) (m ((c : Thread nD τ).loc main_arg1))
            (LowRank.scaled bcast_S_S16x4096 (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by
      rw [barr_eq]
      show LowRank.product (V m c main_arg0) (V m c main_arg1) _ = _
      rw [V_main_arg0, V_main_arg1])), (h c).2⟩)
    (Value.run_blocks m ρ)

end Cert.KernelIdeal.ArrayValue

end
-- ==== Proof.RefValue.lean ====
/-
  What the reference's result array holds, at the ideal instance.

  The reference walks an 8 × 8 grid, row tiles of 1024 rows outermost and column tiles of 512 columns innermost. At
  the first column tile of a row tile it forms `x_i · A` (a 1024 × 16 block) and keeps it in a scratch buffer; at every
  column tile it multiplies the kept block by the column tile of `B' = 16 · B` and stores the 1024 × 512 result, which is
  written back to the result's block `(i, j)`. So the scratch, after any point of row tile `i`, holds rows
  `1024·i …` of `x · A` (by induction on the point: set at the row tile's first point, untouched at the others), and
  entry `(p, q)` of what point `(i, j)` stores is `∑ k, (x · A) (1024·i + p, k) · B' (k, 512·j + q)`: an entry of
  `(x · A) · B'`. The 64 blocks cover the array.
-/
import proofs.«171711_g2000505684096532_pallasbulk_122_2_alg».proof.Defs
import proofs.«171711_g2000505684096532_pallasbulk_122_2_alg».proof.Proof.Gen.ReferenceIdeal.Value
import proofs.«171711_g2000505684096532_pallasbulk_122_2_alg».proof.Proof.LibPlainMatmul
import proofs.«171711_g2000505684096532_pallasbulk_122_2_alg».proof.Proof.Spec
import Idealize.ShloMosaic.Lib.Pipeline.Value
import Idealize.ShloMosaic.Lib.StableHlo.Run
import Idealize.ShloMosaic.Lib.Tactic

noncomputable section

namespace Cert.ReferenceIdeal.ArrayValue

open Cert.ReferenceIdeal Cert.ReferenceIdeal.Gen Idealize.ShloMosaic Idealize.ShloMosaic.TcCoe Idealize.SL.Sem
open Idealize.ShloMosaic.ValueIdx
open Idealize.ShloMosaic.Pipeline (Dat)
open Cert.LibPlainMatmul (IsPlain matmul_zero_apply)

theorem hz : (![0, 0] : Fin 2 → Nat) = fun _ => 0 := funext fun a => by fin_cases a <;> rfl

/-! ## The two stored values at an index -/

/-- Both products' dimension numbers are those of a plain product. -/
theorem plain_xa : IsPlain dot_S1024x4096_S4096x16_S1024x16_1_0_0_1_n_n := ⟨rfl, rfl, rfl, rfl, rfl, rfl⟩
theorem plain_yb : IsPlain dot_S1024x16_S16x512_S1024x512_1_0_0_1_n_n := ⟨rfl, rfl, rfl, rfl, rfl, rfl⟩

/-- Entry `(p, k)` of what the first column tile keeps in the scratch: row `p` of the `x` block against column `k` of `A`. -/
theorem kept_apply (x0 : Vec Ideal S1024x4096 .f32) (x1 : Vec Ideal S4096x16 .f32) (p : Fin 1024) (k : Fin 16) :
    k0_pay1 (F := Ideal) x0 x1 (ix2 p k) = ∑ j : Fin 4096, x0 (ix2 p j) * x1 (ix2 j k) := by
  unfold k0_pay1
  refine (congrFun (shapeCast_self _ _) (ix2 p k)).trans ?_
  exact matmul_zero_apply plain_xa none x0 x1 p k

/-- Entry `(p, q)` of what every point stores: row `p` of the scratch against column `q` of the `B'` block. -/
theorem tile_apply (xs : Vec Ideal S1024x16 .f32) (x2 : Vec Ideal S16x512 .f32) (p : Fin 1024) (q : Fin 512) :
    k0_pay2 (F := Ideal) xs x2 (ix2 p q) = ∑ k : Fin 16, xs (ix2 p k) * x2 (ix2 k q) := by
  unfold k0_pay2
  refine (matmul_zero_apply plain_yb none _ _ p q).trans ?_
  refine Finset.sum_congr rfl fun k _ => congrArg₂ (· * ·) rfl ?_
  rw [shapeCast_self]

/-! ## What each case of the body leaves, as values of its loaded blocks -/

section Pieces
variable {F : FTy → Type} [FloatOps F]

/-- At a row tile's first point the scratch is stored whole: it ends at `x_i · A`. -/
theorem scratch_A (c : Dev nD) (i : grid0.Coords) (a2 : Memref sig .tc .vmem S1024x4096 .f32) (h2 : a2.IsWhole)
    (a3 : Memref sig .tc .vmem S4096x16 .f32) (h3 : a3.IsWhole) (a4 : Memref sig .tc .vmem S16x512 .f32) (h4 : a4.IsWhole)
    (a5 : Memref sig .tc .vmem S1024x512 .f32) (h5 : a5.IsWhole) (a6 : Memref sig .tc .vmem S1024x16 .f32) (h6 : a6.IsWhole)
    (hc : cond0_0 i) (x0 : Vec F S1024x4096 .f32) (x1 : Vec F S4096x16 .f32) (x2 : Vec F S16x512 .f32) :
    sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, View.ld_unit_zero (S := S1024x4096) hz,
    View.ld_unit_zero (S := S4096x16) hz]

/-- At a row tile's first point the output block is the product of what was just stored in the scratch, read back,
    with the `B'` block. -/
theorem out_A (c : Dev nD) (i : grid0.Coords) (a2 : Memref sig .tc .vmem S1024x4096 .f32) (h2 : a2.IsWhole)
    (a3 : Memref sig .tc .vmem S4096x16 .f32) (h3 : a3.IsWhole) (a4 : Memref sig .tc .vmem S16x512 .f32) (h4 : a4.IsWhole)
    (a5 : Memref sig .tc .vmem S1024x512 .f32) (h5 : a5.IsWhole) (a6 : Memref sig .tc .vmem S1024x16 .f32) (h6 : a6.IsWhole)
    (hc : cond0_0 i) (x0 : Vec F S1024x4096 .f32) (x1 : Vec F S4096x16 .f32) (x2 : Vec F S16x512 .f32) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, h4.read_unread,
    View.ld_unit_zero (S := S1024x4096) hz, View.ld_unit_zero (S := S4096x16) hz, View.ld_unit_zero (S := S16x512) hz,
    View.readCov_unit_zero (S := S1024x16) _ hz]

/-- At every other point the output block is the product of what the point before left in the scratch with the `B'`
    block; the scratch is not written. -/
theorem out_B (c : Dev nD) (i : grid0.Coords) (a2 : Memref sig .tc .vmem S1024x4096 .f32) (h2 : a2.IsWhole)
    (a3 : Memref sig .tc .vmem S4096x16 .f32) (h3 : a3.IsWhole) (a4 : Memref sig .tc .vmem S16x512 .f32) (h4 : a4.IsWhole)
    (a5 : Memref sig .tc .vmem S1024x512 .f32) (h5 : a5.IsWhole) (a6 : Memref sig .tc .vmem S1024x16 .f32) (h6 : a6.IsWhole)
    (hc : ¬cond0_0 i) (x0 : Vec F S1024x4096 .f32) (x1 : Vec F S4096x16 .f32) (x2 : Vec F S16x512 .f32)
    (xs : Vec F S1024x16 .f32) :
    out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero hz]
  simp only [View.readAt_eq_ld, h4.read_unread, h6.read_unread, View.ld_unit_zero (S := S1024x16) hz,
    View.ld_unit_zero (S := S16x512) hz]

end Pieces

/-! ## The blocks a point reads, as entries of the arrays -/

variable (m : (ℓ : Loc nD τ sig) → Buf (Elt Ideal) ℓ) (ρ : Dev nD → PrngReg)

/-- The argument arrays as the region finds them, and the three blocks point `t` loads, at their literal types. -/
abbrev xarr (c : Dev nD) : Vec Ideal S8192x4096 .f32 := V m c main_arg0
abbrev aarr (c : Dev nD) : Vec Ideal S4096x16 .f32 := V m c main_arg1
abbrev barr (c : Dev nD) : Vec Ideal S16x4096 .f32 := V m c main_v1
abbrev xblk (c : Dev nD) (t : Fin cfg0.N) : Vec Ideal S1024x4096 .f32 := iblk m c 0 t
abbrev ablk (c : Dev nD) (t : Fin cfg0.N) : Vec Ideal S4096x16 .f32 := iblk m c 1 t
abbrev bblk (c : Dev nD) (t : Fin cfg0.N) : Vec Ideal S16x512 .f32 := iblk m c 2 t

/-- The printed index maps over the 64 points: point `t` is row tile `t / 8`, column tile `t % 8`. -/
theorem idx_facts : ∀ t : Fin cfg0.N, win0_0.index t (0 : Fin 2) = t.val / 8 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 8
    ∧ win0_3.index t (0 : Fin 2) = t.val / 8 ∧ win0_3.index t (1 : Fin 2) = t.val % 8 :=
  (by decide +kernel : ∀ t : Fin grid0.N, _)

/-- Row `p` of row tile `r`, and column `q` of column tile `s`, as coordinates of the whole arrays (for `r, s < 8`
    nothing wraps). -/
def rowOf (r : ℕ) (p : Fin 1024) : Fin 8192 := ⟨(1024 * r + p.val) % 8192, Nat.mod_lt _ (by decide)⟩
def colOf (s : ℕ) (q : Fin 512) : Fin 4096 := ⟨(512 * s + q.val) % 4096, Nat.mod_lt _ (by decide)⟩

/-- Row `p` of `x`'s block at point `t` is row `1024·(t / 8) + p` of `x`. -/
theorem xblk_apply (c : Dev nD) (t : Fin cfg0.N) (p : Fin 1024) (j : Fin 4096) :
    xblk m c t (ix2 p j) = xarr m c (ix2 (rowOf (t.val / 8) p) j) := by
  obtain ⟨e0, e1, -⟩ := idx_facts t
  have hN : t.val < 64 := lt_of_lt_of_eq t.isLt (show cfg0.N = 64 from N_0)
  show V m c main_arg0 (((cfg0.win 0).blk t).view.emb (ix2 p j)) = V m c main_arg0 (ix2 (rowOf (t.val / 8) p) j)
  refine congrArg _ (funext fun a => Fin.ext ?_)
  match a with
  | ⟨0, _⟩ =>
    show win0_0.index t (0 : Fin 2) * 1024 + 1 * p.val = (1024 * (t.val / 8) + p.val) % 8192
    have hp := p.isLt; omega
  | ⟨1, _⟩ => show win0_0.index t (1 : Fin 2) * 4096 + 1 * j.val = j.val; omega

/-- `A`'s one block is `A`. -/
theorem ablk_apply (c : Dev nD) (t : Fin cfg0.N) (j : Fin 4096) (k : Fin 16) :
    ablk m c t (ix2 j k) = aarr m c (ix2 j k) := by
  obtain ⟨-, -, e0, e1, -⟩ := idx_facts t
  show V m c main_arg1 (((cfg0.win 1).blk t).view.emb (ix2 j k)) = V m c main_arg1 (ix2 j k)
  refine congrArg _ (funext fun a => Fin.ext ?_)
  match a with
  | ⟨0, _⟩ => show win0_1.index t (0 : Fin 2) * 4096 + 1 * j.val = j.val; omega
  | ⟨1, _⟩ => show win0_1.index t (1 : Fin 2) * 16 + 1 * k.val = k.val; omega

/-- Column `q` of `B'`'s block at point `t` is column `512·(t % 8) + q` of `B'`. -/
theorem bblk_apply (c : Dev nD) (t : Fin cfg0.N) (k : Fin 16) (q : Fin 512) :
    bblk m c t (ix2 k q) = barr m c (ix2 k (colOf (t.val % 8) q)) := by
  obtain ⟨-, -, -, -, e0, e1, -⟩ := idx_facts t
  show V m c main_v1 (((cfg0.win 2).blk t).view.emb (ix2 k q)) = V m c main_v1 (ix2 k (colOf (t.val % 8) q))
  refine congrArg _ (funext fun a => Fin.ext ?_)
  match a with
  | ⟨0, _⟩ => show win0_2.index t (0 : Fin 2) * 16 + 1 * k.val = k.val; omega
  | ⟨1, _⟩ =>
    show win0_2.index t (1 : Fin 2) * 512 + 1 * q.val = (512 * (t.val % 8) + q.val) % 4096
    have hq := q.isLt; omega

/-! ## The scratch and the output block after each point -/

/-- What a row tile's first point would keep, at ANY point `t` of the tile: rows `1024·(t / 8) …` of `x · A`. -/
theorem kept_val (c : Dev nD) (t : Fin cfg0.N) (p : Fin 1024) (k : Fin 16) :
    k0_pay1 (F := Ideal) (xblk m c t) (ablk m c t) (ix2 p k)
      = LowRank.bottleneck (xarr m c) (aarr m c) (rowOf (t.val / 8) p) k := by
  rw [kept_apply]
  unfold LowRank.bottleneck
  exact Finset.sum_congr rfl fun j _ => by rw [xblk_apply, ablk_apply]

/-- THE SCRATCH after point `n` holds rows `1024·(n / 8) …` of `x · A`: by induction on the point — stored at the
    points ≡ 0 (mod 8), left as it was at the others, which are in the same row tile as the point before. -/
theorem scratch_eq (c : Dev nD) : ∀ (n : ℕ) (h : n < cfg0.N) (p : Fin 1024) (k : Fin 16),
    (outsAt0 m c n h).2 (ix2 p k) = LowRank.bottleneck (xarr m c) (aarr m c) (rowOf (n / 8) p) k
  | 0, h, p, k => by
    rw [outsAt0_A m c ⟨0, h⟩ rfl]; dsimp only
    rw [scratch_A]
    exact kept_val m c ⟨0, h⟩ p k
  | n + 1, h, p, k => by
    by_cases h0 : (n + 1) % 8 = 0
    · rw [outsAt0_A m c ⟨n + 1, h⟩ h0]; dsimp only
      rw [scratch_A]
      exact kept_val m c ⟨n + 1, h⟩ p k
    · rw [outsAt0_B m c ⟨n + 1, h⟩ h0]; dsimp only
      unfold sout0_B_0
      show (outsAt0 m c n _).2 (ix2 p k) = _
      rw [scratch_eq c n _ p k, show (n + 1) / 8 = n / 8 by omega]

/-- THE OUTPUT BLOCK after point `t`: entry `(p, q)` is entry `(1024·(t / 8) + p, 512·(t % 8) + q)` of
    `(x · A) · B'`. -/
theorem out_eq (c : Dev nD) (t : Fin cfg0.N) (p : Fin 1024) (q : Fin 512) :
    (outsAt0 m c t.val t.isLt).1 (ix2 p q)
      = LowRank.entry (xarr m c) (aarr m c) (barr m c) (rowOf (t.val / 8) p) (colOf (t.val % 8) q) := by
  unfold LowRank.entry
  by_cases h0 : t.val % 8 = 0
  · rw [outsAt0_A m c t h0]; dsimp only
    rw [out_A, tile_apply]
    exact Finset.sum_congr rfl fun k _ => congrArg₂ (· * ·) (kept_val m c t p k) (bblk_apply m c t k q)
  · rw [outsAt0_B m c t h0]; dsimp only
    rw [out_B, tile_apply]
    refine Finset.sum_congr rfl fun k _ => congrArg₂ (· * ·) ?_ (bblk_apply m c t k q)
    rw [scratch_eq m c (t.val - 1) _ p k, show (t.val - 1) / 8 = t.val / 8 by omega]

/-! ## What each point writes back, the cover, and the array -/

/-- WHAT POINT `t` WRITES BACK is block `(t / 8, t % 8)` of `(x · A) · B'` of the arrays as the region finds them. -/
theorem flushed_eq (c : Dev nD) (t : Fin cfg0.N) :
    (dats m 0 c).flushed 3 t
      = ((cfg0.win 3).blk t).view.read (Elt Ideal) (LowRank.product (xarr m c) (aarr m c) (barr m c)) := by
  rw [Value.flushed3]
  obtain ⟨-, -, -, -, -, -, e0, e1⟩ := idx_facts t
  have hN : t.val < 64 := lt_of_lt_of_eq t.isLt (show cfg0.N = 64 from N_0)
  refine funext fun (y : S1024x512.Idx) => ?_
  obtain ⟨p, q, rfl⟩ : ∃ (p : Fin 1024) (q : Fin 512), y = ix2 p q := ⟨y 0, y 1, eq_ix2 y⟩
  show (outsAt0 m c t.val t.isLt).1 (ix2 p q)
    = LowRank.entry (xarr m c) (aarr m c) (barr m c) ((((cfg0.win 3).blk t).view.emb (ix2 p q)) 0)
        ((((cfg0.win 3).blk t).view.emb (ix2 p q)) 1)
  rw [out_eq]
  have hp := p.isLt
  have hq := q.isLt
  refine congrArg₂ (LowRank.entry (xarr m c) (aarr m c) (barr m c)) (Fin.ext ?_) (Fin.ext ?_)
  · show (1024 * (t.val / 8) + p.val) % 8192 = win0_3.index t (0 : Fin 2) * 1024 + 1 * p.val
    omega
  · show (512 * (t.val % 8) + q.val) % 4096 = win0_3.index t (1 : Fin 2) * 512 + 1 * q.val
    omega

/-- An index of the array is in point `t`'s block iff each coordinate is in the block's range on its axis. -/
theorem mem_blk (t : Fin cfg0.N) (i : S8192x4096.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v2).slice (win0_3.rect t)).set ↔ _
  rw [View.set_slice_whole, Rect.mem_set_unit]
  exact Iff.rfl

/-- Entry `(r, s)` of the result lies in the block of point `8·(r / 1024) + s / 512`: the 64 blocks cover the array. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 64 := N_0
  have hb : 8 * ((i 0).val / 1024) + (i 1).val / 512 < cfg0.N := by rw [hN]; omega
  refine ⟨⟨8 * ((i 0).val / 1024) + (i 1).val / 512, hb⟩, flush0_3 _, ?_⟩
  rw [mem_blk]
  obtain ⟨-, -, -, -, -, -, e0, e1⟩ := idx_facts ⟨8 * ((i 0).val / 1024) + (i 1).val / 512, hb⟩
  intro a
  match a with
  | ⟨0, _⟩ =>
    show win0_3.index _ (0 : Fin 2) * 1024 ≤ (i 0).val ∧ (i 0).val < win0_3.index _ (0 : Fin 2) * 1024 + 1024
    rw [e0]; dsimp only; omega
  | ⟨1, _⟩ =>
    show win0_3.index _ (1 : Fin 2) * 512 ≤ (i 1).val ∧ (i 1).val < win0_3.index _ (1 : Fin 2) * 512 + 512
    rw [e1]; dsimp only; omega

/-- THE ARRAY after the run: `(x · A) · B'` of the arrays as the region finds them. -/
theorem final (c : Dev nD) :
    (dats m 0 c).arrAt 3 cfg0.N = LowRank.product (xarr m c) (aarr m c) (barr m c) :=
  (dats m 0 c).arrAt_eq_of_cover 3 _ (fun t _ => flushed_eq m c t) cover

/-! ## The arrays as the region finds them, from the arguments -/

/-- The host operations before the region leave `16 · B` in the third operand's array. -/
theorem barr_eq (c : Dev nD) :
    barr m c = LowRank.scaled bcast_S_S16x4096 (m ((c : Thread nD τ).loc main_arg2)) := by
  show V m c main_v1 = _
  dsimp only [V, hostOps0]
  after_results
  rfl

/-- THE RUN, READ: the result array ends at `(x · A) · (16 · B)` of the arguments, which end unchanged. -/
theorem run : θ_run defs (onTc (τ := τ) (main (F := Ideal))) ⟨m, fun _ => 0, ρ⟩ fun r => ∀ c : Dev nD,
      r.2.mem ((c : Thread nD τ).loc main_v2)
        = LowRank.product (m ((c : Thread nD τ).loc main_arg0)) (m ((c : Thread nD τ).loc main_arg1))
            (LowRank.scaled bcast_S_S16x4096 (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by
      rw [barr_eq]
      show LowRank.product (V m c main_arg0) (V m c main_arg1) _ = _
      rw [V_main_arg0, V_main_arg1])), (h c).2⟩)
    (Value.run_blocks m ρ)

end Cert.ReferenceIdeal.ArrayValue

end
-- ==== Proof.lean ====
/-
  `Cert.Claim`: a fused low-rank update `y = 16 · (x · A · B)`, written as one pass over 16 row tiles, against a
  reference that walks an 8 × 8 grid of blocks and keeps `x_i · A` in a scratch buffer across a row tile's column tiles.

  Both programs first scale the small factor on the host, `B' = 16 · B`, entry by entry, and then form `(x · A) · B'`:
  the kernel as two products per row tile (KernelValue.lean), the reference with the inner product computed once per
  row tile and reused (RefValue.lean). Read at an index over the extended reals, each `tpu.matmul` into a zero
  accumulator is the sum over its contracted axis (LibPlainMatmul.lean), so both result arrays are the ONE function
  `(p, q) ↦ ∑ k < 16, (∑ j < 4096, x (p, j) · A (j, k)) · B' (k, q)` of the arguments (Spec.lean): the sums are
  grouped the same way on both sides, no law of the extended reals is needed, and finiteness of the inputs is not
  used. The three frames are the generated ones; the ideal pass rewrote nothing, so `preserves` is `True`.
-/
import proofs.«171711_g2000505684096532_pallasbulk_122_2_alg».proof.Defs
import proofs.«171711_g2000505684096532_pallasbulk_122_2_alg».proof.Proof.Gen.Kernel
import proofs.«171711_g2000505684096532_pallasbulk_122_2_alg».proof.Proof.Gen.Kernel.Frame
import proofs.«171711_g2000505684096532_pallasbulk_122_2_alg».proof.Proof.Gen.KernelIdeal
import proofs.«171711_g2000505684096532_pallasbulk_122_2_alg».proof.Proof.Gen.KernelIdeal.Frame
import proofs.«171711_g2000505684096532_pallasbulk_122_2_alg».proof.Proof.Gen.ReferenceIdeal
import proofs.«171711_g2000505684096532_pallasbulk_122_2_alg».proof.Proof.Gen.ReferenceIdeal.Frame
import proofs.«171711_g2000505684096532_pallasbulk_122_2_alg».proof.Proof.Gen.Pre_finite_inputs
import proofs.«171711_g2000505684096532_pallasbulk_122_2_alg».proof.Proof.KernelValue
import proofs.«171711_g2000505684096532_pallasbulk_122_2_alg».proof.Proof.RefValue
import Idealize.ShloMosaic.Adequacy
import Idealize.ShloMosaic.Init

noncomputable section

namespace Cert.Proof

open Idealize.ShloMosaic Idealize.ShloMosaic.TcCoe Idealize.SL.Sem

/-- Each program runs and leaves its arguments as they were: the generated frames. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- From memories that agree on `x`, `A` and `B`, both idealized programs end with the result array at
    `(x · A) · (16 · B)` of the arguments: the same function on both sides. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.ArrayValue.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
